-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S10000x512 .f32) (main_arg1 : IVec S2x160000 32) (main_arg2 : FVec F S512x512 .f32) (main_arg3 : FVec F S512 .f32) (main_arg4 : FVec F S512x512 .f32) (main_arg5 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩
abbrev S1000x512 : Shape := ⟨2, ![1000, 512]⟩

abbrev nBuf : Space → Nat
  | .hbm => 26
  | .vmem => 10
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x160000, .i32⟩
  | .hbm, ⟨7, _⟩ => ⟨S160000, .i32⟩
  | .hbm, ⟨8, _⟩ => ⟨S1x160000, .i32⟩
  | .hbm, ⟨9, _⟩ => ⟨S160000, .i32⟩
  | .hbm, ⟨10, _⟩ => ⟨S_, .i32⟩
  | .hbm, ⟨11, _⟩ => ⟨S160000, .i32⟩
  | .hbm, ⟨12, _⟩ => ⟨S160000, .i1⟩
  | .hbm, ⟨13, _⟩ => ⟨S_, .i32⟩
  | .hbm, ⟨14, _⟩ => ⟨S160000, .i32⟩
  | .hbm, ⟨15, _⟩ => ⟨S160000, .i32⟩
  | .hbm, ⟨16, _⟩ => ⟨S160000, .i32⟩
  | .hbm, ⟨17, _⟩ => ⟨S160000x1, .i32⟩
  | .hbm, ⟨18, _⟩ => ⟨S160000x512, .f32⟩
  | .hbm, ⟨19, _⟩ => ⟨S_, .f32⟩
  | .hbm, ⟨20, _⟩ => ⟨S10000x512, .f32⟩
  | .hbm, ⟨21, _⟩ => ⟨S160000x1, .i32⟩
  | .hbm, ⟨22, _⟩ => ⟨S10000x512, .f32⟩
  | .hbm, ⟨23, _⟩ => ⟨S1x512, .f32⟩
  | .hbm, ⟨24, _⟩ => ⟨S1x512, .f32⟩
  | .hbm, ⟨25, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1000x512, .f32⟩
  | .local _ .vmem, ⟨9, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .f32 = 32 ∨ (Rect.block (s := S10000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x512.size a ≤ S10000x512.size a
  hwx0_6 : ∀ i : grid0.Coords, EltTy.bits .f32 = 32 ∨ (Rect.block (s := S10000x512) S1000x512.size (cc0_transform_6 i) (hinb0_6 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩

abbrev nBuf : Space → Nat
  | .hbm => 35
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x160000, .i32⟩
  | .hbm, ⟨7, _⟩ => ⟨S160000, .i32⟩
  | .hbm, ⟨8, _⟩ => ⟨S1x160000, .i32⟩
  | .hbm, ⟨9, _⟩ => ⟨S160000, .i32⟩
  | .hbm, ⟨10, _⟩ => ⟨S_, .i32⟩
  | .hbm, ⟨11, _⟩ => ⟨S160000, .i32⟩
  | .hbm, ⟨12, _⟩ => ⟨S160000, .i1⟩
  | .hbm, ⟨13, _⟩ => ⟨S_, .i32⟩
  | .hbm, ⟨14, _⟩ => ⟨S160000, .i32⟩
  | .hbm, ⟨15, _⟩ => ⟨S160000, .i32⟩
  | .hbm, ⟨16, _⟩ => ⟨S160000, .i32⟩
  | .hbm, ⟨17, _⟩ => ⟨S160000x1, .i32⟩
  | .hbm, ⟨18, _⟩ => ⟨S160000x512, .f32⟩
  | .hbm, ⟨19, _⟩ => ⟨S_, .f32⟩
  | .hbm, ⟨20, _⟩ => ⟨S10000x512, .f32⟩
  | .hbm, ⟨21, _⟩ => ⟨S160000x1, .i32⟩
  | .hbm, ⟨22, _⟩ => ⟨S10000x512, .f32⟩
  | .hbm, ⟨23, _⟩ => ⟨S10000x512, .f32⟩
  | .hbm, ⟨24, _⟩ => ⟨S10000x512, .f32⟩
  | .hbm, ⟨25, _⟩ => ⟨S1x512, .f32⟩
  | .hbm, ⟨26, _⟩ => ⟨S10000x512, .f32⟩
  | .hbm, ⟨27, _⟩ => ⟨S10000x512, .f32⟩
  | .hbm, ⟨28, _⟩ => ⟨S_, .f32⟩
  | .hbm, ⟨29, _⟩ => ⟨S10000x512, .f32⟩
  | .hbm, ⟨30, _⟩ => ⟨S10000x512, .f32⟩
  | .hbm, ⟨31, _⟩ => ⟨S10000x512, .f32⟩
  | .hbm, ⟨32, _⟩ => ⟨S1x512, .f32⟩
  | .hbm, ⟨33, _⟩ => ⟨S10000x512, .f32⟩
  | .hbm, ⟨34, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.BlockProduct.lean ====
/-
  A block's matrix product read at an entry.

  The kernel multiplies a block of 1000 rows by a 512 × 512 weight matrix on the matrix unit, into a
  zero accumulator. At the ideal instance the product's entry in row `p` and column `q` is the plain
  sum `∑ k, A[p, k] · B[k, q]` over the 512 contracted positions: the contraction index of the
  printed dimension numbers (one contracted axis on each side) is re-indexed by its one coordinate.
-/
import proofs.«179731_j44882408243752_1_alg».proof.Proof.Gen.KernelIdeal
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left operand is read in the output's row … -/
theorem lhs_row (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
/-- … at the contracted position, -/
theorem lhs_col (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
/-- and the right operand at the contracted position … -/
theorem rhs_row (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
/-- … in the output's column. -/
theorem rhs_col (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The product into a zero accumulator, at row `p` and column `q`: `∑ k, A[p, k] · B[k, q]`. -/
theorem product_apply {φ₁ φ₂ : FTy} (A : FVec Ideal S1000x512 φ₁) (B : FVec Ideal S512x512 φ₂) (p : Fin 1000) (q : Fin 512) :
    matmul dot_S1000x512_S512x512_S1000x512_1_0_0_1_n_n none A B (constant S1000x512 .f32 0x00000000#32) (ix2 p q)
      = ∑ k : Fin 512, A (ix2 p k) * B (ix2 k q) := by
  simp only [matmul]
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p q) ((contrEquiv1 dot_S1000x512_S512x512_S1000x512_1_0_0_1_n_n 512 rfl rfl).symm k) = ix2 p k := funext fun a => Fin.ext (by
    match a with
    | ⟨0, _⟩ => exact lhs_row _ _
    | ⟨1, _⟩ => exact (lhs_col _ _).trans hk)
  have er : dot_S1000x512_S512x512_S1000x512_1_0_0_1_n_n.rhsIdx (ix2 p q) ((contrEquiv1 dot_S1000x512_S512x512_S1000x512_1_0_0_1_n_n 512 rfl rfl).symm k) = ix2 k q := funext fun a => Fin.ext (by
    match a with
    | ⟨0, _⟩ => exact (rhs_row _ _).trans hk
    | ⟨1, _⟩ => exact rhs_col _ _)
  rw [el, er]

end Cert.KernelIdeal.BlockProduct

end
-- ==== Proof.Perceptron.lean ====
/-
  The function both programs compute, index by index, on the extended reals.

  A graph layer of GIN type over 10000 nodes with 512 features: every node adds to its own feature
  row the sum `agg` of the rows its in-neighbours send it, and the combined row `x = h + agg` goes
  through a perceptron of two dense layers,

      out[n, q] = (∑ k, max ((∑ l, x[n, l] · W1[l, k]) + b1[k]) 0 · W2[k, q]) + b2[q].

  The aggregate `agg` is an ARGUMENT of the function here: how it is gathered and summed from the edge
  list is the same host computation in both programs and is never opened. The zero of the rectifier
  is kept as the f32 zero word, the same word on both sides.
-/
import Idealize.ShloMosaic.PureOps.Ideal
import Idealize.ShloMosaic.Lib.ValueIdx

noncomputable section

open scoped BigOperators

namespace Cert.Perceptron

open Idealize.ShloMosaic Idealize.ShloMosaic.ValueIdx

/-- The rectifier's threshold: the f32 zero word read at the ideal instance. -/
abbrev zeroWord : EReal := Ideal.ofBits .f32 0x00000000#32

/-- The hidden layer at unit `k`, from one combined feature row `x`: the rectified affine image
    `max (x · W1[·, k] + b1[k]) 0`. -/
def hiddenUnit (x : Fin 512 → EReal) (W1 : (⟨2, ![512, 512]⟩ : Shape).Idx → EReal) (b1 : Fin 512 → EReal)
    (k : Fin 512) : EReal :=
  max ((∑ l : Fin 512, x l * W1 (ix2 l k)) + b1 k) zeroWord

/-- One entry of the perceptron's output row, from one combined feature row `x`: the second affine
    layer over the hidden units. -/
def rowOut (x : Fin 512 → EReal) (W1 : (⟨2, ![512, 512]⟩ : Shape).Idx → EReal) (b1 : Fin 512 → EReal)
    (W2 : (⟨2, ![512, 512]⟩ : Shape).Idx → EReal) (b2 : Fin 512 → EReal) (q : Fin 512) : EReal :=
  (∑ k : Fin 512, hiddenUnit x W1 b1 k * W2 (ix2 k q)) + b2 q

/-- The whole output array: node `n = i 0`'s combined row `h[n, ·] + agg[n, ·]` through the
    perceptron, read at feature `q = i 1`. -/
def G (h agg : (⟨2, ![10000, 512]⟩ : Shape).Idx → EReal) (W1 : (⟨2, ![512, 512]⟩ : Shape).Idx → EReal)
    (b1 : (⟨1, ![512]⟩ : Shape).Idx → EReal) (W2 : (⟨2, ![512, 512]⟩ : Shape).Idx → EReal)
    (b2 : (⟨1, ![512]⟩ : Shape).Idx → EReal) : (⟨2, ![10000, 512]⟩ : Shape).Idx → EReal :=
  fun i => rowOut (fun l => h (ix2 (i 0) l) + agg (ix2 (i 0) l)) W1 (fun k => b1 (ix1 k)) W2
    (fun q => b2 (ix1 q)) (i 1)

/-- `G` at node `n` and feature `q`: the perceptron of node `n`'s combined row, read at `q`. -/
theorem G_apply (h agg : (⟨2, ![10000, 512]⟩ : Shape).Idx → EReal) (W1 : (⟨2, ![512, 512]⟩ : Shape).Idx → EReal)
    (b1 : (⟨1, ![512]⟩ : Shape).Idx → EReal) (W2 : (⟨2, ![512, 512]⟩ : Shape).Idx → EReal)
    (b2 : (⟨1, ![512]⟩ : Shape).Idx → EReal) (n : Fin 10000) (q : Fin 512) :
    G h agg W1 b1 W2 b2 (ix2 n q)
      = rowOut (fun l => h (ix2 n l) + agg (ix2 n l)) W1 (fun k => b1 (ix1 k)) W2 (fun k => b2 (ix1 k)) q := rfl

end Cert.Perceptron

end
-- ==== Proof.BlockRow.lean ====
/-
  One entry of what the kernel body stores, as the perceptron of one row of its blocks.

  At a grid point the body loads a block of 1000 rows of `h` and of the aggregate, both weight
  matrices and both bias rows, and stores `relu ((h + agg) · W1 + b1) · W2 + b2` for those rows.
  The two changes of format to bf16 in front of each product are the identity on the extended
  reals, each product is a plain sum over the 512 contracted positions, and each bias row (one row
  of 512) is repeated down the block. So the stored entry in row `p` and column `q` is the
  specification's `rowOut` of row `p` of the combined block.
-/
import proofs.«179731_j44882408243752_1_alg».proof.Proof.Gen.KernelIdeal.Skeleton
import proofs.«179731_j44882408243752_1_alg».proof.Proof.BlockProduct
import proofs.«179731_j44882408243752_1_alg».proof.Proof.Perceptron
import Idealize.ShloMosaic.Lib.Pipeline.Value

noncomputable section

open scoped BigOperators

namespace Cert.KernelIdeal.BlockRow

open Cert.KernelIdeal Cert.KernelIdeal.Gen Idealize.ShloMosaic Idealize.ShloMosaic.ValueIdx Cert.Perceptron

/-- A bias row repeated down the block: the entry in row `p`, column `q` is the bias at `q`. -/
theorem bias_apply (v : Vec Ideal S1x512 .f32) (p : Fin 1000) (q : Fin 512) :
    broadcastTo S1000x512 (shapeCast S1x512 v shapeCasts_S1x512_S1x512) broadcasts_S1x512_S1000x512 (ix2 p q)
      = v (ix2 0 q) := by
  rw [shapeCast_self]
  exact broadcastTo_apply v broadcasts_S1x512_S1000x512 (ix2 p q) (ix2 0 q) (fun a => match a with
    | ⟨0, _⟩ => by show (0 : Nat) = if (1 : Nat) = 1 then 0 else _; rw [if_pos rfl]
    | ⟨1, _⟩ => by show q.val = if (512 : Nat) = 1 then 0 else _; rw [if_neg (by decide)]; rfl)

/-- The combined block in front of the first product: `h + agg`, entry by entry. -/
theorem combined_apply (v0 v1 : Vec Ideal S1000x512 .f32) (p : Fin 1000) (l : Fin 512) :
    (truncf .bf16 (addf v0 (shapeCast S1000x512 v1 shapeCasts_S1000x512_S1000x512)) bitsLt_bf16_f32 : FVec Ideal S1000x512 .bf16) (ix2 p l)
      = v0 (ix2 p l) + v1 (ix2 p l) := by
  rw [shapeCast_self]; rfl

/-- The stored value at row `p` and column `q`. -/
theorem stored_apply (v0 v1 : Vec Ideal S1000x512 .f32) (v5 : Vec Ideal S512x512 .f32) (v8 : Vec Ideal S1x512 .f32)
    (v15 : Vec Ideal S512x512 .f32) (v18 : Vec Ideal S1x512 .f32) (p : Fin 1000) (q : Fin 512) :
    k0_pay1 v0 v1 v5 v8 v15 v18 (ix2 p q)
      = rowOut (fun l => v0 (ix2 p l) + v1 (ix2 p l)) v5 (fun k => v8 (ix2 0 k)) v15 (fun k => v18 (ix2 0 k)) q := by
  unfold k0_pay1 rowOut hiddenUnit
  refine (addf_apply _ _ _).trans ?_
  refine congrArg₂ (· + ·) ?_ (bias_apply v18 p q)
  refine (BlockProduct.product_apply _ _ p q).trans ?_
  refine Finset.sum_congr rfl fun k _ => ?_
  refine congrArg₂ (· * ·) ?_ rfl
  refine (truncf_apply (ψ := .bf16) _ bitsLt_bf16_f32 _).trans ?_
  refine (maximumf_apply _ _ _).trans ?_
  refine congrArg₂ max ?_ rfl
  refine (addf_apply _ _ _).trans ?_
  refine congrArg₂ (· + ·) ?_ (bias_apply v8 p k)
  refine (BlockProduct.product_apply _ _ p k).trans ?_
  refine Finset.sum_congr rfl fun l _ => ?_
  refine congrArg₂ (· * ·) (combined_apply v0 v1 p l) rfl

end Cert.KernelIdeal.BlockRow

end
-- ==== Proof.Entry.lean ====
/-
  What the region finds in the three arrays the host operations write before it.

  Before the kernel region, @main gathers the senders' feature rows and sums them into the receivers'
  rows (the aggregate), and reshapes each bias vector of 512 entries into one row of 512. The
  aggregate is, operation for operation, the reference's aggregate stage of the same two arguments;
  a reshaped bias row read at column `k` is the bias at `k`.
-/
import proofs.«179731_j44882408243752_1_alg».proof.Proof.Gen.KernelIdeal.Frame
import proofs.«179731_j44882408243752_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregate the region finds is the reference's aggregate stage of `h` and the edge list. -/
theorem aggregate_eq (c : Dev nD) :
    (V m c main_v13 : S10000x512.Idx → EReal)
      = Cert.ReferenceIdeal.Read.val_main_v13 (F := Ideal) (m ((c : Thread nD τ).loc main_arg0)) (m ((c : Thread nD τ).loc main_arg1)) := by
  dsimp only [Gen.V, Gen.hostOps0]; after_results; rfl

/-- The first bias as one row: the region finds the reshaped vector. -/
theorem bias1_eq (c : Dev nD) :
    (V m c main_v14 : S1x512.Idx → EReal) = shapeCast S1x512 (m ((c : Thread nD τ).loc main_arg3)) shapeCasts_S512_S1x512 := by
  dsimp only [Gen.V, Gen.hostOps0]; after_results; rfl

/-- The second bias as one row. -/
theorem bias2_eq (c : Dev nD) :
    (V m c main_v15 : S1x512.Idx → EReal) = shapeCast S1x512 (m ((c : Thread nD τ).loc main_arg5)) shapeCasts_S512_S1x512 := by
  dsimp only [Gen.V, Gen.hostOps0]; after_results; rfl

/-- A vector of 512 reshaped to one row, read at column `k`, is the vector at `k`. -/
theorem row_apply (b : S512.Idx → EReal) (k : Fin 512) :
    shapeCast S1x512 b shapeCasts_S512_S1x512 (ix2 0 k) = b (ix1 k) :=
  shapeCast_apply b shapeCasts_S512_S1x512 (ix2 0 k) (ix1 k)
    (by rewrite [Shape.rowMajor_val_two, Shape.rowMajor_val_one]; show k.val = 0 * 512 + k.val; omega)

theorem bias1_apply (c : Dev nD) (k : Fin 512) :
    (V m c main_v14 : S1x512.Idx → EReal) (ix2 0 k) = m ((c : Thread nD τ).loc main_arg3) (ix1 k) := by
  rw [bias1_eq]; exact row_apply _ k

theorem bias2_apply (c : Dev nD) (k : Fin 512) :
    (V m c main_v15 : S1x512.Idx → EReal) (ix2 0 k) = m ((c : Thread nD τ).loc main_arg5) (ix1 k) := by
  rw [bias2_eq]; exact row_apply _ k

end Cert.KernelIdeal.Entry

end
-- ==== Proof.Blocks.lean ====
/-
  From the blocks to the whole output array.

  The grid has ten points; point `t` stages rows `1000·t … 1000·t + 999` of `h` and of the aggregate,
  the two weight matrices and the two bias rows whole, and writes back the same rows of the output.
  What it writes back is, row by row, the specification's perceptron of `h + agg`; the ten row blocks
  tile the 10000 rows, so after the run the output array is the specification's `G`.
-/
import proofs.«179731_j44882408243752_1_alg».proof.Proof.Gen.KernelIdeal.Value
import proofs.«179731_j44882408243752_1_alg».proof.Proof.BlockRow
import proofs.«179731_j44882408243752_1_alg».proof.Proof.Entry

noncomputable section

namespace Cert.KernelIdeal.Blocks

open Cert.KernelIdeal Cert.KernelIdeal.Gen Idealize.ShloMosaic Idealize.ShloMosaic.TcCoe Idealize.SL.Sem
open Idealize.ShloMosaic.ValueIdx Cert.Perceptron
open Idealize.ShloMosaic.Pipeline (Dat)

variable (m : (ℓ : Loc nD τ sig) → Buf (Elt Ideal) ℓ) (ρ : Dev nD → PrngReg)

/-- Every access of the body starts at the origin of its staging buffer. -/
theorem origin : (![0, 0] : Fin 2 → Nat) = fun _ => 0 := funext fun a => by fin_cases a <;> rfl

/-- The printed index maps, decided over the ten grid points: the row windows (`h`, the aggregate, the
    output) are at block row `t`, every other window at its one block. -/
theorem point_facts : ∀ t : Fin cfg0.N, t.val < 10
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every one of the ten block rows is some point's. -/
theorem point_onto : ∀ r : Fin 10, ∃ t : Fin cfg0.N, t.val = r.val :=
  (by decide +kernel : ∀ r : Fin 10, ∃ t : Fin grid0.N, t.val = r.val)

/-- The node whose row is row `p` of point `t`'s blocks. -/
def node (t : Fin cfg0.N) (p : Fin 1000) : Fin 10000 :=
  ⟨t.val * 1000 + p.val, by have := (point_facts t).1; have := p.isLt; omega⟩

/-- The output array the run is shown to leave: the perceptron of `h` plus the aggregate (the reference's
    aggregate stage of `h` and the edge list), over the arguments as launched. -/
abbrev spec (c : Dev nD) : S10000x512.Idx → EReal :=
  G (m ((c : Thread nD τ).loc main_arg0))
    (Cert.ReferenceIdeal.Read.val_main_v13 (F := Ideal) (m ((c : Thread nD τ).loc main_arg0)) (m ((c : Thread nD τ).loc main_arg1)))
    (m ((c : Thread nD τ).loc main_arg2)) (m ((c : Thread nD τ).loc main_arg3))
    (m ((c : Thread nD τ).loc main_arg4)) (m ((c : Thread nD τ).loc main_arg5))

/-! ## The staged blocks, read where the output's rows say -/

/-- Row `p` of point `t`'s block of `h` is node `node t p`'s row. -/
theorem h_block (c : Dev nD) (t : Fin cfg0.N) (p : Fin 1000) (l : Fin 512) :
    iblk m c 0 t (ix2 p l) = m ((c : Thread nD τ).loc main_arg0) (ix2 (node t p) l) := by
  obtain ⟨_, e0, e1, _⟩ := point_facts t
  show V m c main_arg0 (((cfg0.win 0).blk t).view.emb (ix2 p l)) = _
  rw [V_main_arg0]
  refine congrArg _ (funext fun a => Fin.ext ?_)
  match a with
  | ⟨0, _⟩ => show win0_0.index t (0 : Fin 2) * 1000 + 1 * p.val = t.val * 1000 + p.val; omega
  | ⟨1, _⟩ => show win0_0.index t (1 : Fin 2) * 512 + 1 * l.val = l.val; omega

/-- Row `p` of point `t`'s block of the aggregate is node `node t p`'s row of the aggregate. -/
theorem agg_block (c : Dev nD) (t : Fin cfg0.N) (p : Fin 1000) (l : Fin 512) :
    iblk m c 1 t (ix2 p l)
      = Cert.ReferenceIdeal.Read.val_main_v13 (F := Ideal) (m ((c : Thread nD τ).loc main_arg0)) (m ((c : Thread nD τ).loc main_arg1)) (ix2 (node t p) l) := by
  obtain ⟨_, _, _, e0, e1, _⟩ := point_facts t
  show V m c main_v13 (((cfg0.win 1).blk t).view.emb (ix2 p l)) = _
  refine (congrFun (Entry.aggregate_eq m c) _).trans ?_
  refine congrArg _ (funext fun a => Fin.ext ?_)
  match a with
  | ⟨0, _⟩ => show win0_1.index t (0 : Fin 2) * 1000 + 1 * p.val = t.val * 1000 + p.val; omega
  | ⟨1, _⟩ => show win0_1.index t (1 : Fin 2) * 512 + 1 * l.val = l.val; omega

/-- The first weight matrix is staged whole. -/
theorem w1_block (c : Dev nD) (t : Fin cfg0.N) :
    (iblk m c 2 t : Vec Ideal S512x512 .f32) = m ((c : Thread nD τ).loc main_arg2) := by
  obtain ⟨_, _, _, _, _, e0, e1, _⟩ := point_facts t
  funext y
  show V m c main_arg2 (((cfg0.win 2).blk t).view.emb y) = _
  rw [V_main_arg2]
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The first bias row is staged whole: at column `k` it is the bias at `k`. -/
theorem b1_block (c : Dev nD) (t : Fin cfg0.N) (k : Fin 512) :
    iblk m c 3 t (ix2 0 k) = m ((c : Thread nD τ).loc main_arg3) (ix1 k) := by
  obtain ⟨_, _, _, _, _, _, _, e0, e1, _⟩ := point_facts t
  show V m c main_v14 (((cfg0.win 3).blk t).view.emb (ix2 0 k)) = _
  refine (congrArg (V m c main_v14) (?_ : _ = ix2 0 k)).trans (Entry.bias1_apply m c k)
  refine funext fun a => Fin.ext ?_
  match a with
  | ⟨0, _⟩ => show win0_3.index t (0 : Fin 2) * 1 + 1 * 0 = 0; omega
  | ⟨1, _⟩ => show win0_3.index t (1 : Fin 2) * 512 + 1 * k.val = k.val; omega

/-- The second weight matrix is staged whole. -/
theorem w2_block (c : Dev nD) (t : Fin cfg0.N) :
    (iblk m c 4 t : Vec Ideal S512x512 .f32) = m ((c : Thread nD τ).loc main_arg4) := by
  obtain ⟨_, _, _, _, _, _, _, _, _, e0, e1, _⟩ := point_facts t
  funext y
  show V m c main_arg4 (((cfg0.win 4).blk t).view.emb y) = _
  rw [V_main_arg4]
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- The second bias row is staged whole. -/
theorem b2_block (c : Dev nD) (t : Fin cfg0.N) (k : Fin 512) :
    iblk m c 5 t (ix2 0 k) = m ((c : Thread nD τ).loc main_arg5) (ix1 k) := by
  obtain ⟨_, _, _, _, _, _, _, _, _, _, _, e0, e1, _⟩ := point_facts t
  show V m c main_v15 (((cfg0.win 5).blk t).view.emb (ix2 0 k)) = _
  refine (congrArg (V m c main_v15) (?_ : _ = ix2 0 k)).trans (Entry.bias2_apply m c k)
  refine funext fun a => Fin.ext ?_
  match a with
  | ⟨0, _⟩ => show win0_5.index t (0 : Fin 2) * 1 + 1 * 0 = 0; omega
  | ⟨1, _⟩ => show win0_5.index t (1 : Fin 2) * 512 + 1 * k.val = k.val; omega

/-! ## What a point writes back -/

/-- The stored block as rows of `G`, for any blocks that are rows `node p` of `H` and `A`, the weights
    whole and the bias rows: stated over plain arrays. -/
theorem stored_eq_rows (x0 x1 : Vec Ideal S1000x512 .f32) (x2 : Vec Ideal S512x512 .f32) (x3 : Vec Ideal S1x512 .f32)
    (x4 : Vec Ideal S512x512 .f32) (x5 : Vec Ideal S1x512 .f32)
    (H A : (⟨2, ![10000, 512]⟩ : Shape).Idx → EReal) (W1 W2 : (⟨2, ![512, 512]⟩ : Shape).Idx → EReal)
    (b1 b2 : (⟨1, ![512]⟩ : Shape).Idx → EReal) (row : Fin 1000 → Fin 10000)
    (e0 : ∀ p l, x0 (ix2 p l) = H (ix2 (row p) l)) (e1 : ∀ p l, x1 (ix2 p l) = A (ix2 (row p) l))
    (e2 : x2 = W1) (e3 : ∀ k, x3 (ix2 0 k) = b1 (ix1 k)) (e4 : x4 = W2) (e5 : ∀ k, x5 (ix2 0 k) = b2 (ix1 k)) :
    k0_pay1 x0 x1 x2 x3 x4 x5 = fun j : S1000x512.Idx => G H A W1 b1 W2 b2 (ix2 (row (j 0)) (j 1)) := by
  funext j
  obtain ⟨p, q, rfl⟩ : ∃ (p : Fin 1000) (q : Fin 512), j = ix2 p q := ⟨j 0, j 1, eq_ix2 j⟩
  rw [BlockRow.stored_apply]
  show _ = G H A W1 b1 W2 b2 (ix2 (row p) q)
  rw [G_apply]
  subst e2 e4
  simp only [e0, e1, e3, e5]

/-- Point `t` writes back block `t` of the specification. -/
theorem flushed_eq (c : Dev nD) (t : Fin cfg0.N) :
    (dats m 0 c).flushed 6 t = ((cfg0.win 6).blk t).view.read (Elt Ideal) (spec m c) := by
  rw [Value.flushed6]
  unfold out0_6
  rw [View.canon_unit_zero origin]
  simp only [View.ld_unit_zero (S := S1000x512) origin, View.ld_unit_zero (S := S512x512) origin, View.ld_unit_zero (S := S1x512) origin]
  rw [stored_eq_rows (iblk m c 0 t) (iblk m c 1 t) (iblk m c 2 t) (iblk m c 3 t) (iblk m c 4 t) (iblk m c 5 t)
    (m ((c : Thread nD τ).loc main_arg0))
    (Cert.ReferenceIdeal.Read.val_main_v13 (F := Ideal) (m ((c : Thread nD τ).loc main_arg0)) (m ((c : Thread nD τ).loc main_arg1)))
    (m ((c : Thread nD τ).loc main_arg2)) (m ((c : Thread nD τ).loc main_arg4))
    (m ((c : Thread nD τ).loc main_arg3)) (m ((c : Thread nD τ).loc main_arg5)) (node t)
    (h_block m c t) (agg_block m c t) (w1_block m c t) (b1_block m c t) (w2_block m c t) (b2_block m c t)]
  obtain ⟨_, _, _, _, _, _, _, _, _, _, _, _, _, e0, e1⟩ := point_facts t
  funext j
  show spec m c (ix2 (node t (j 0)) (j 1)) = spec m c (((cfg0.win 6).blk t).view.emb j)
  refine congrArg _ (funext fun a => Fin.ext ?_)
  match a with
  | ⟨0, _⟩ => show t.val * 1000 + (j 0).val = win0_6.index t (0 : Fin 2) * 1000 + 1 * (j 0).val; omega
  | ⟨1, _⟩ => show (j 1).val = win0_6.index t (1 : Fin 2) * 512 + 1 * (j 1).val; omega

/-! ## The ten row blocks tile the array -/

/-- An index is in point `t`'s block iff each coordinate is in the block's range on its axis. -/
theorem mem_block (t : Fin cfg0.N) (i : S10000x512.Idx) :
    i ∈ ((cfg0.win 6).blk t).view.set ↔ ∀ a : Fin 2, win0_6.index t a * S1000x512.size a ≤ (i a).val ∧ (i a).val < win0_6.index t a * S1000x512.size a + S1000x512.size a := by
  show i ∈ ((View.whole main_v16).slice (win0_6.rect t)).set ↔ _
  rw [View.set_slice_whole, Rect.mem_set_unit]
  exact Iff.rfl

/-- Node `n`'s row is in the block of point `n / 1000`. -/
theorem covered (i : S10000x512.Idx) :
    ∃ t : Fin cfg0.N, (cfg0.win 6).flush t = true ∧ i ∈ ((cfg0.win 6).blk t).view.set := by
  have hi0 : (i 0).val < 10000 := (i 0).isLt
  have hi1 : (i 1).val < 512 := (i 1).isLt
  obtain ⟨t, ht⟩ := point_onto ⟨(i 0).val / 1000, by omega⟩
  have ht' : t.val = (i 0).val / 1000 := ht
  obtain ⟨_, _, _, _, _, _, _, _, _, _, _, _, _, e0, e1⟩ := point_facts t
  refine ⟨t, flush0_6 t, ?_⟩
  rw [mem_block]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 512 ≤ (i 1).val ∧ (i 1).val < win0_6.index t (1 : Fin 2) * 512 + 512; omega

/-- After the run the output array is the specification. -/
theorem final (c : Dev nD) : (dats m 0 c).arrAt 6 cfg0.N = spec m c :=
  (dats m 0 c).arrAt_eq_of_cover 6 (spec m c) (fun t _ => flushed_eq m c t) covered

/-- The kernel's run with its result named: the output array at the specification, the arguments unchanged. -/
theorem run : θ_run defs (onTc (τ := τ) (main (F := Ideal))) ⟨m, fun _ => 0, ρ⟩ fun r => ∀ c : Dev nD,
      r.2.mem ((c : Thread nD τ).loc main_v16) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.RefPerceptron.lean ====
/-
  The reference's result is the specification.

  The reference computes the aggregate on the host, adds it to `h`, and applies the two dense
  layers with the rectifier between them, each layer a `dot_general` contracting the feature axis
  plus a bias row broadcast over the nodes. Read at an index, each `dot_general` is a sum over the
  512 contracted positions, the left factor in the output's row and the right factor in the output's
  column; each bias is read at the output's column. That is `G` with the reference's own aggregate
  term for `agg`.
-/
import proofs.«179731_j44882408243752_1_alg».proof.Proof.Gen.ReferenceIdeal.Read
import proofs.«179731_j44882408243752_1_alg».proof.Proof.Perceptron

noncomputable section

open scoped BigOperators

namespace Cert.ReferenceIdeal.RefValue

open Cert.ReferenceIdeal Cert.ReferenceIdeal.Read Idealize.ShloMosaic Idealize.ShloMosaic.ValueIdx Cert.Perceptron

/-! The composed index functions of the read-at-an-index lemmas, in coordinates. -/

/-- Second layer, left factor: the hidden activations in the output's row. -/
theorem hidden_idx (n : Fin 10000) (q k : Fin 512) : lidx_main_v20 (ix2 n q) k = ix2 n k :=
  funext fun a => Fin.ext (by match a with | ⟨0, _⟩ => rfl | ⟨1, _⟩ => rfl)
/-- Second layer, right factor: `W2` in the output's column. -/
theorem w2_idx (n : Fin 10000) (q k : Fin 512) : ridx_main_v20 (ix2 n q) k = ix2 k q :=
  funext fun a => Fin.ext (by match a with | ⟨0, _⟩ => rfl | ⟨1, _⟩ => rfl)
/-- Second bias: read at the output's column. -/
theorem b2_idx (n : Fin 10000) (q : Fin 512) : idx_main_v21 (idx_main_v22 (ix2 n q)) = ix1 q :=
  funext fun a => Fin.ext (by match a with | ⟨0, _⟩ => rfl)
/-- First layer, left factor: the combined features in the node's row. -/
theorem combined_idx (n : Fin 10000) (k l : Fin 512) : lidx_main_v15 (ix2 n k) l = ix2 n l :=
  funext fun a => Fin.ext (by match a with | ⟨0, _⟩ => rfl | ⟨1, _⟩ => rfl)
/-- First layer, right factor: `W1` in the hidden unit's column. -/
theorem w1_idx (n : Fin 10000) (k l : Fin 512) : ridx_main_v15 (ix2 n k) l = ix2 l k :=
  funext fun a => Fin.ext (by match a with | ⟨0, _⟩ => rfl | ⟨1, _⟩ => rfl)
/-- First bias: read at the hidden unit. -/
theorem b1_idx (n : Fin 10000) (k : Fin 512) : idx_main_v16 (idx_main_v17 (ix2 n k)) = ix1 k :=
  funext fun a => Fin.ext (by match a with | ⟨0, _⟩ => rfl)

/-- The reference's last stage is the perceptron of `h + agg`, `agg` the reference's aggregate stage. -/
theorem result_eq (x0 : (⟨S10000x512, .f32⟩ : BufTy).Contents (Elt Ideal)) (x1 : (⟨S2x160000, .i32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal)) :
    val_main_v23 (F := Ideal) x0 x1 x2 x3 x4 x5 = G x0 (val_main_v13 (F := Ideal) x0 x1) x2 x3 x4 x5 := by
  funext i
  obtain ⟨n, q, rfl⟩ : ∃ (n : Fin 10000) (q : Fin 512), i = ix2 n q := ⟨i 0, i 1, eq_ix2 i⟩
  rw [G_apply]
  unfold rowOut hiddenUnit
  rw [val_main_v23_apply, val_main_v20_apply, val_main_v22_apply, val_main_v21_apply, b2_idx]
  refine congrArg₂ (· + ·) (Finset.sum_congr rfl fun k _ => ?_) rfl
  rw [hidden_idx, w2_idx, val_main_v19_apply, val_main_v18_apply, val_main_v15_apply, val_main_v17_apply,
    val_main_v16_apply, val_main_call0_v0_apply, val_main_call0_cst_apply, b1_idx]
  refine congrArg₂ (· * ·) (congrArg₂ max (congrArg₂ (· + ·) (Finset.sum_congr rfl fun l _ => ?_) rfl) rfl) rfl
  rw [combined_idx, w1_idx, val_main_v14_apply]
  rfl

end Cert.ReferenceIdeal.RefValue

end
-- ==== Proof.lean ====
/-
  A graph layer of GIN type: a Pallas kernel for its two-layer perceptron against the jnp reference.

  Both programs first compute, on the host and with the same operations, the aggregate
  `agg[n, ·] = ∑ over edges (s → n) of h[s, ·]` (a gather of the senders' rows and a segment sum into the
  receivers' rows). The reference then computes `relu ((h + agg) · W1 + b1) · W2 + b2` with two whole
  `dot_general`s; the kernel computes the same per block of 1000 nodes on a grid of ten points, casting the
  operands of each product to bf16, which is the identity on the extended reals. Index by index both
  results are

      out[n, q] = (∑ k, max ((∑ l, (h[n, l] + agg[n, l]) · W1[l, k]) + b1[k]) 0 · W2[k, q]) + b2[q]

  with the same aggregate term, so they are equal as extended reals; no law beyond reading the sums at an
  index is used, and the precondition is never opened. The ideal pass rewrote nothing, so the kernel's
  idealization is its own text read at the ideal instance.
-/
import proofs.«179731_j44882408243752_1_alg».proof.Defs
import proofs.«179731_j44882408243752_1_alg».proof.Proof.Gen.Kernel
import proofs.«179731_j44882408243752_1_alg».proof.Proof.Gen.Kernel.Skeleton
import proofs.«179731_j44882408243752_1_alg».proof.Proof.Gen.Kernel.Launch
import proofs.«179731_j44882408243752_1_alg».proof.Proof.Gen.Kernel.Points
import proofs.«179731_j44882408243752_1_alg».proof.Proof.Gen.Kernel.Frame
import proofs.«179731_j44882408243752_1_alg».proof.Proof.Gen.KernelIdeal
import proofs.«179731_j44882408243752_1_alg».proof.Proof.Gen.KernelIdeal.Skeleton
import proofs.«179731_j44882408243752_1_alg».proof.Proof.Gen.KernelIdeal.Launch
import proofs.«179731_j44882408243752_1_alg».proof.Proof.Gen.KernelIdeal.Points
import proofs.«179731_j44882408243752_1_alg».proof.Proof.Gen.KernelIdeal.Frame
import proofs.«179731_j44882408243752_1_alg».proof.Proof.Gen.ReferenceIdeal
import proofs.«179731_j44882408243752_1_alg».proof.Proof.Gen.Pre_finite_inputs
import proofs.«179731_j44882408243752_1_alg».proof.Proof.Gen.KernelIdeal.Value
import proofs.«179731_j44882408243752_1_alg».proof.Proof.Gen.ReferenceIdeal.Run
import proofs.«179731_j44882408243752_1_alg».proof.Proof.Gen.ReferenceIdeal.Read
import proofs.«179731_j44882408243752_1_alg».proof.Proof.Blocks
import proofs.«179731_j44882408243752_1_alg».proof.Proof.RefPerceptron
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's output array and the reference's result are both the
    perceptron of `h` plus the aggregate: one function of the arguments. -/
theorem algebraic : Cert.algebraic_KernelIdeal_ReferenceIdeal := by
  intro m ρ m' ρ' _ hagree
  refine ⟨fun c => Cert.KernelIdeal.Blocks.spec m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
